-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_arg4 : FVec F S2048x8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  main_v23

def fn {F : FTy → Type} [FloatOps F] (main_arg0 : FVec F S2x2048x2048 .f32) (main_arg1 : FVec F S8192x2048 .f32) (main_arg2 : FVec F S8192x2048 .f32) (main_arg3 : FVec F S8192x2048 .f32) (main_arg4 : FVec F S2048x8192 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_v13 main_v16
-- ==== Kernel.lean ====
abbrev S2x2048x2048 : Shape := ⟨3, ![2, 2048, 2048]⟩
abbrev S8192x2048 : Shape := ⟨2, ![8192, 2048]⟩
abbrev S2048x8192 : Shape := ⟨2, ![2048, 8192]⟩
abbrev S4096x2048 : Shape := ⟨2, ![4096, 2048]⟩
abbrev S512x2048 : Shape := ⟨2, ![512, 2048]⟩
abbrev S256x2048 : Shape := ⟨2, ![256, 2048]⟩
abbrev S2048x256 : Shape := ⟨2, ![2048, 256]⟩
abbrev S512x256 : Shape := ⟨2, ![512, 256]⟩

abbrev nBuf : Space → Nat
  | .hbm => 8
  | .vmem => 9
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2048x8192, .f32⟩
  | .hbm, ⟨5, _⟩ => ⟨S4096x2048, .f32⟩
  | .hbm, ⟨6, _⟩ => ⟨S4096x2048, .f32⟩
  | .hbm, ⟨7, _⟩ => ⟨S2x2048x2048, .f32⟩
  | .local _ .vmem, ⟨0, _⟩ => ⟨S512x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S2048x256, .f32⟩
  | .local _ .vmem, ⟨6, _⟩ => ⟨S2048x256, .f32⟩
  | .local _ .vmem, ⟨7, _⟩ => ⟨S512x2048, .f32⟩
  | .local _ .vmem, ⟨8, _⟩ => ⟨S512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v22 : BitVec 1 := Scalar.cmpi .eq arg1 c31_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  shapeCasts_S2x2048x2048_S4096x2048 : S2x2048x2048.ShapeCasts S4096x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S2048x256_S2048x256_0_0 : ∀ a, (![0, 0] : Fin 2 → Nat) a + S2048x256.size a ≤ S2048x256.size a
  h_S2048x256 : 0 < S2048x256.numel
  shapeCasts_S4096x2048_S2x2048x2048 : S4096x2048.ShapeCasts S2x2048x2048
  dot_S512x2048_S256x2048_S512x256_1_1_0_0_n_n_wf : DotDims.WF S512x2048 S256x2048 S512x256 [1] [1] [0] [0] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x8192.size a
  hwx0_3 : ∀ i : grid0.Coords, EltTy.bits .f32 = 32 ∨ (Rect.block (s := S2048x8192) S2048x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x2048.size a
  hwx0_4 : ∀ i : grid0.Coords, EltTy.bits .f32 = 32 ∨ (Rect.block (s := S4096x2048) S512x2048.size (cc0_transform_4 i) (hinb0_4 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_v0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x2048.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S2048x8192 : Shape := ⟨2, ![2048, 8192]⟩
abbrev S2x2048x8192 : Shape := ⟨3, ![2, 2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2048x8192, .f32⟩
  | .hbm, ⟨5, _⟩ => ⟨S2x2048x8192, .f32⟩
  | .hbm, ⟨6, _⟩ => ⟨S2x2048x8192, .f32⟩
  | .hbm, ⟨7, _⟩ => ⟨S2x2048x8192, .f32⟩
  | .hbm, ⟨8, _⟩ => ⟨S2x2048x8192, .f32⟩
  | .hbm, ⟨9, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.Held.lean ====
/-
  What one grid point leaves behind, as values.

  The body keeps a running block in a scratch buffer. At a row tile's first point it stores the zero block, reads it
  back, adds this point's partial product and stores the sum; at every later point it adds this point's partial
  product to what the point before left; at the row tile's last point it also copies the finished block to the
  output. Each of these is one store covering the whole buffer, so what the buffer holds afterwards is that store's
  value: the update applied to the zero block, or to the previous contents.
-/
import proofs.«139317_j46780783788220_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Held

open Cert.KernelIdeal Cert.KernelIdeal.Gen

variable {F : FTy → Type} [FloatOps F]

theorem hz : (![0, 0] : Fin 2 → Nat) = fun _ => 0 := funext fun a => by fin_cases a <;> rfl

/-- First point of a row tile: the scratch ends at the update of the zero block. -/
theorem scratch_first (c : Dev nD) (i : grid0.Coords) (arg2 : Memref sig .tc .vmem S512x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .f32) (x1 : Vec F S256x2048 .f32) (x2 : Vec F S256x2048 .f32) (x3 : Vec F S2048x256 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg7.read_unread,
    View.ld_unit_zero (S := S512x2048) hz, View.ld_unit_zero (S := S256x2048) hz, View.ld_unit_zero (S := S2048x256) hz]

/-- A middle point: the scratch ends at the update of what the point before left. -/
theorem scratch_middle (c : Dev nD) (i : grid0.Coords) (arg2 : Memref sig .tc .vmem S512x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .f32) (x1 : Vec F S256x2048 .f32) (x2 : Vec F S256x2048 .f32) (x3 : Vec F S2048x256 .f32) (xs0 : Vec F S512x2048 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread,
    View.ld_unit_zero (S := S512x2048) hz, View.ld_unit_zero (S := S256x2048) hz, View.ld_unit_zero (S := S2048x256) hz]

/-- Last point of a row tile: the scratch ends at the update of what the point before left, -/
theorem scratch_last (c : Dev nD) (i : grid0.Coords) (arg2 : Memref sig .tc .vmem S512x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .f32) (x1 : Vec F S256x2048 .f32) (x2 : Vec F S256x2048 .f32) (x3 : Vec F S2048x256 .f32) (xs0 : Vec F S512x2048 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S512x2048) hz, View.ld_unit_zero (S := S256x2048) hz, View.ld_unit_zero (S := S2048x256) hz]

/-- and the output block is a copy of it. -/
theorem out_last (c : Dev nD) (i : grid0.Coords) (arg2 : Memref sig .tc .vmem S512x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S2048x256 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .f32) (x1 : Vec F S256x2048 .f32) (x2 : Vec F S256x2048 .f32) (x3 : Vec F S2048x256 .f32) (xs0 : Vec F S512x2048 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S512x2048) _ hz]
  simp only [View.readAt_eq_ld, harg2.read_unread, harg3.read_unread, harg4.read_unread, harg5.read_unread, harg7.read_unread,
    View.ld_unit_zero (S := S512x2048) hz, View.ld_unit_zero (S := S256x2048) hz, View.ld_unit_zero (S := S2048x256) hz]

end Cert.KernelIdeal.Held

end
-- ==== Proof.LibDotNT.lean ====
/-
  A matrix product of two row-major operands contracted along their LAST axes, read at an entry.

  For dimension numbers that contract axis 1 of an `M × K` left operand with axis 1 of an `N × K` right operand
  (`l · rᵀ`, what `dot_general(a, b, (((1,), (1,)), ((), ())))` prints) and have no batch axes, the contraction index is one
  coordinate `k : Fin K`, the left operand is read at `(a, k)` and the right operand at `(b, k)`: the sum over the
  contraction index is `∑ k : Fin K`. At the ideal instance this reads a kernel's matrix product into a zero
  accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDotNT

open Idealize.ShloMosaic Idealize.ShloMosaic.ValueIdx

/-- The sum over the contraction index of an `M × K` by `N × K` product contracted along both last axes, as a sum over
    `Fin K`. -/
theorem nt_sum {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    {α : Type} [AddCommMonoid α] (f : (⟨2, ![M, K]⟩ : Shape).Idx → (⟨2, ![N, K]⟩ : Shape).Idx → α) (a : Fin M) (b : Fin N) :
    ∑ k : d.contr.Idx, f (d.lhsIdx (ix2 a b) k) (d.rhsIdx (ix2 a b) k) = ∑ k : Fin K, f (ix2 a k) (ix2 b k) := by
  obtain ⟨lc, rc, ln, rn, lb, rb, wf⟩ := d
  dsimp only at h1 h2 h3 h4 h5 h6
  subst h1 h2 h3 h4 h5 h6
  have hr : (DotDims.mk [1] [1] [0] [0] [] [] wf : DotDims ⟨2, ![M, K]⟩ ⟨2, ![N, K]⟩ ⟨2, ![M, N]⟩).contr.rank = 1 := rfl
  have hs : (DotDims.mk [1] [1] [0] [0] [] [] wf : DotDims ⟨2, ![M, K]⟩ ⟨2, ![N, K]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product `l · rᵀ` into the zero accumulator, at the ideal instance, at entry `(a, b)`. -/
theorem matmul_zero_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    matmul d prec l r (constant ⟨2, ![M, N]⟩ .f32 0x00000000#32) (ix2 a b) = ∑ k : Fin K, l (ix2 a k) * r (ix2 b k) := by
  show FloatOps.matmul d prec l r (constant ⟨2, ![M, N]⟩ .f32 0x00000000#32) (ix2 a b) = _
  rw [Ideal.matmul_constant_zero_apply]
  exact nt_sum d h1 h2 h3 h4 h5 h6 (fun i j => l i * r j) a b

/-- A host program's `dot_general` of the same dimension numbers, at the ideal instance, at entry `(a, b)`. -/
theorem dotGeneral_apply {M K N : Nat} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) {φ₁ φ₂ : FTy}
    (prec : Option ContractPrecision) (l : FVec Ideal ⟨2, ![M, K]⟩ φ₁) (r : FVec Ideal ⟨2, ![N, K]⟩ φ₂) (a : Fin M) (b : Fin N) :
    Host.dotGeneral d prec l r (ix2 a b) = ∑ k : Fin K, l (ix2 a k) * r (ix2 b k) := by
  show FloatOps.dotGeneral d prec .single l r (ix2 a b) = _
  rw [Ideal.dotGeneral_apply]
  exact nt_sum d h1 h2 h3 h4 h5 h6 (fun i j => l i * r j) a b

end Cert.LibDotNT

end
-- ==== Proof.Update.lean ====
/-
  One point's update of the running block, entry by entry, over the extended reals.

  With the point's blocks x (512 × 2048 rows of X), a and b (256 × 2048 rows of Wq and Wv) and w (2048 × 256 columns
  of Wo), the update adds to the previous block, at entry (r, e),

      ∑ l < 256, ((∑ k, x[r,k]·a[l,k]) · (∑ k, x[r,k]·b[l,k])) · w[e,l] :

  the changes of float format are the identity, and each of the three matrix products into a zero accumulator
  contracts the last axes of its two operands.
-/
import proofs.«139317_j46780783788220_1_alg».proof.Proof.Gen.KernelIdeal.Skeleton
import proofs.«139317_j46780783788220_1_alg».proof.Proof.LibDotNT
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Held

open Cert.KernelIdeal Cert.KernelIdeal.Gen

/-- The block the reset stores is zero at every entry. -/
theorem reset_apply (y : S512x2048.Idx) : k0_pay1 (F := Ideal) y = 0 := by
  unfold k0_pay1
  simp only [shapeCast_self]
  show Ideal.ofBits .f32 0x00000000#32 = 0
  exact Ideal.ofBits_zero_f32

/-- The update at entry `(r, e)`. -/
theorem update_apply (x0 : Vec Ideal S512x2048 .f32) (x1 x2 : Vec Ideal S256x2048 .f32) (x3 : Vec Ideal S2048x256 .f32)
    (xs : Vec Ideal S512x2048 .f32) (r : Fin 512) (e : Fin 2048) :
    k0_pay2 (F := Ideal) x0 x1 x2 x3 xs (ix2 r e)
      = xs (ix2 r e) + ∑ l : Fin 256, ((∑ k : Fin 2048, x0 (ix2 r k) * x1 (ix2 l k))
          * (∑ k : Fin 2048, x0 (ix2 r k) * x2 (ix2 l k))) * x3 (ix2 e l) := by
  unfold k0_pay2
  simp only [shapeCast_self]
  rw [addf_apply, Cert.LibDotNT.matmul_zero_apply _ rfl rfl rfl rfl rfl rfl]
  congr 1
  refine Finset.sum_congr rfl fun l _ => ?_
  rw [truncf_apply, truncf_apply, mulf_apply, Cert.LibDotNT.matmul_zero_apply _ rfl rfl rfl rfl rfl rfl,
    Cert.LibDotNT.matmul_zero_apply _ rfl rfl rfl rfl rfl rfl]
  simp only [truncf_apply]

end Cert.KernelIdeal.Held

end
-- ==== Proof.Blocks.lean ====
/-
  The blocks a grid point sees, as pieces of the arrays.

  Point t = 32·i + j (i < 8 row tiles, j < 32 lattice tiles) sees rows 512·i … 512·i + 511 of X, rows
  256·j … 256·j + 255 of Wq and of Wv, and columns 256·j … 256·j + 255 of Wo; the output block of row tile i is rows
  512·i … 512·i + 511 of the result.
-/
import proofs.«139317_j46780783788220_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Held

open Cert.KernelIdeal Cert.KernelIdeal.Gen

variable {F : FTy → Type} [FloatOps F]
variable (m : (ℓ : Loc nD τ sig) → Buf (Elt F) ℓ)

/-- The point's blocks and the arrays, at their literal types. -/
abbrev xblk (c : Dev nD) (t : Fin cfg0.N) : Vec F S512x2048 .f32 := iblk m c 0 t
abbrev ablk (c : Dev nD) (t : Fin cfg0.N) : Vec F S256x2048 .f32 := iblk m c 1 t
abbrev bblk (c : Dev nD) (t : Fin cfg0.N) : Vec F S256x2048 .f32 := iblk m c 2 t
abbrev wblk (c : Dev nD) (t : Fin cfg0.N) : Vec F S2048x256 .f32 := iblk m c 3 t
abbrev Xarr (c : Dev nD) : Vec F S4096x2048 .f32 := V m c main_v0
abbrev Aarr (c : Dev nD) : Vec F S8192x2048 .f32 := V m c main_arg1
abbrev Barr (c : Dev nD) : Vec F S8192x2048 .f32 := V m c main_arg3
abbrev Warr (c : Dev nD) : Vec F S2048x8192 .f32 := V m c main_arg4

/-- Which block each window shows at point `t`: the row tile is `t / 32`, the lattice tile `t % 32`. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val % 32 ∧ win0_2.index t (1 : Fin 2) = 0
    ∧ win0_3.index t (0 : Fin 2) = 0 ∧ win0_3.index t (1 : Fin 2) = t.val % 32
    ∧ win0_4.index t (0 : Fin 2) = t.val / 32 ∧ win0_4.index t (1 : Fin 2) = 0 :=
  (by decide +kernel : ∀ t : Fin grid0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val % 32 ∧ win0_2.index t (1 : Fin 2) = 0
    ∧ win0_3.index t (0 : Fin 2) = 0 ∧ win0_3.index t (1 : Fin 2) = t.val % 32
    ∧ win0_4.index t (0 : Fin 2) = t.val / 32 ∧ win0_4.index t (1 : Fin 2) = 0)

theorem xblk_apply (c : Dev nD) (t : Fin cfg0.N) (r : Fin 512) (k : Fin 2048) (R : Fin 4096)
    (hR : R.val = 512 * (t.val / 32) + r.val) : xblk m c t (ix2 r k) = Xarr m c (ix2 R k) := by
  obtain ⟨h0, h1, -⟩ := idx_facts t
  unfold xblk iblk
  rw [View.read_apply]
  show V m c main_v0 _ = V m c main_v0 _
  congr 1
  funext a
  apply Fin.ext
  match a with
  | ⟨0, _⟩ => show win0_0.index t 0 * 512 + 1 * r.val = R.val; rw [h0, hR]; omega
  | ⟨1, _⟩ => show win0_0.index t 1 * 2048 + 1 * k.val = k.val; rw [h1]; omega

theorem ablk_apply (c : Dev nD) (t : Fin cfg0.N) (l : Fin 256) (k : Fin 2048) (L : Fin 8192)
    (hL : L.val = 256 * (t.val % 32) + l.val) : ablk m c t (ix2 l k) = Aarr m c (ix2 L k) := by
  obtain ⟨-, -, h0, h1, -⟩ := idx_facts t
  unfold ablk iblk
  rw [View.read_apply]
  show V m c main_arg1 _ = V m c main_arg1 _
  congr 1
  funext a
  apply Fin.ext
  match a with
  | ⟨0, _⟩ => show win0_1.index t 0 * 256 + 1 * l.val = L.val; rw [h0, hL]; omega
  | ⟨1, _⟩ => show win0_1.index t 1 * 2048 + 1 * k.val = k.val; rw [h1]; omega

theorem bblk_apply (c : Dev nD) (t : Fin cfg0.N) (l : Fin 256) (k : Fin 2048) (L : Fin 8192)
    (hL : L.val = 256 * (t.val % 32) + l.val) : bblk m c t (ix2 l k) = Barr m c (ix2 L k) := by
  obtain ⟨-, -, -, -, h0, h1, -⟩ := idx_facts t
  unfold bblk iblk
  rw [View.read_apply]
  show V m c main_arg3 _ = V m c main_arg3 _
  congr 1
  funext a
  apply Fin.ext
  match a with
  | ⟨0, _⟩ => show win0_2.index t 0 * 256 + 1 * l.val = L.val; rw [h0, hL]; omega
  | ⟨1, _⟩ => show win0_2.index t 1 * 2048 + 1 * k.val = k.val; rw [h1]; omega

theorem wblk_apply (c : Dev nD) (t : Fin cfg0.N) (e : Fin 2048) (l : Fin 256) (L : Fin 8192)
    (hL : L.val = 256 * (t.val % 32) + l.val) : wblk m c t (ix2 e l) = Warr m c (ix2 e L) := by
  obtain ⟨-, -, -, -, -, -, h0, h1, -⟩ := idx_facts t
  unfold wblk iblk
  rw [View.read_apply]
  show V m c main_arg4 _ = V m c main_arg4 _
  congr 1
  funext a
  apply Fin.ext
  match a with
  | ⟨0, _⟩ => show win0_3.index t 0 * 2048 + 1 * e.val = e.val; rw [h0]; omega
  | ⟨1, _⟩ => show win0_3.index t 1 * 256 + 1 * l.val = L.val; rw [h1, hL]; omega

end Cert.KernelIdeal.Held

end
-- ==== Proof.LibStretchSum.lean ====
/-
  Sums cut into equal stretches.  A sum over the first `a * b` naturals is the sum, over the `a` stretches of
  length `b`, of each stretch's own sum: only commutativity and associativity of `+` are used, so the statement
  holds in every additive commutative monoid (the extended reals among them, infinities included).
-/
import Mathlib.Algebra.BigOperators.Intervals
import Mathlib.Algebra.BigOperators.Fin

namespace Cert.Algebra

open Finset

/-- `∑_{s<a} ∑_{q<b} f (b·s + q) = ∑_{k<a·b} f k`. -/
theorem sum_range_stretches {β : Type*} [AddCommMonoid β] (f : ℕ → β) (b : ℕ) :
    ∀ a : ℕ, ∑ s ∈ range a, ∑ q ∈ range b, f (b * s + q) = ∑ k ∈ range (a * b), f k
  | 0 => by simp
  | a + 1 => by
    rw [sum_range_succ, sum_range_stretches f b a, Nat.succ_mul, sum_range_add, Nat.mul_comm b a]

/-- The same with the inner sums over `Fin b` and the whole sum over `Fin (a * b)`. -/
theorem sum_fin_stretches {β : Type*} [AddCommMonoid β] (f : ℕ → β) (a b : ℕ) :
    ∑ s ∈ range a, ∑ q : Fin b, f (b * s + q.val) = ∑ k : Fin (a * b), f k.val := by
  rw [Fin.sum_univ_eq_sum_range (fun k => f k) (a * b), ← sum_range_stretches f b a]
  exact sum_congr rfl fun s _ => Fin.sum_univ_eq_sum_range (fun q => f (b * s + q)) b

end Cert.Algebra
-- ==== Proof.Spec.lean ====
/-
  The mathematics of the fused projection / product / projection.

  With X : 4096 × 2048, Wq, Wv : 8192 × 2048 and Wo : 2048 × 8192 over the extended reals, the result at row R and
  column e is

      ∑ L < 8192, ((∑ k, X[R,k]·Wq[L,k]) · (∑ k, X[R,k]·Wv[L,k])) · Wo[e,L].

  The lattice axis L is cut into 32 tiles of 256 positions; a running sum over the first n tiles is `upTo … n`, it
  grows by one tile's sum at a time, and after all 32 tiles it is the whole sum. Only commutativity and
  associativity of `+` are used, so infinite entries need no care.
-/
import Idealize.ShloMosaic.PureOps.Ideal
import Idealize.ShloMosaic.Lib.ValueIdx
import proofs.«139317_j46780783788220_1_alg».proof.Proof.LibStretchSum

noncomputable section

namespace Cert.Spec

open Idealize.ShloMosaic Idealize.ShloMosaic.ValueIdx Finset

abbrev SX : Shape := ⟨2, ![4096, 2048]⟩
abbrev SW : Shape := ⟨2, ![8192, 2048]⟩
abbrev SO : Shape := ⟨2, ![2048, 8192]⟩

variable (X : SX.Idx → EReal) (Wq Wv : SW.Idx → EReal) (Wo : SO.Idx → EReal)

/-- The summand at lattice position `L`, for row `R` and column `e` (naturals; zero outside the arrays). -/
def term (R e L : ℕ) : EReal :=
  if h : R < 4096 ∧ e < 2048 ∧ L < 8192 then
    ((∑ k : Fin 2048, X (ix2 ⟨R, h.1⟩ k) * Wq (ix2 ⟨L, h.2.2⟩ k))
      * (∑ k : Fin 2048, X (ix2 ⟨R, h.1⟩ k) * Wv (ix2 ⟨L, h.2.2⟩ k))) * Wo (ix2 ⟨e, h.2.1⟩ ⟨L, h.2.2⟩)
  else 0

/-- The whole result at `(R, e)`. -/
def whole (R : Fin 4096) (e : Fin 2048) : EReal :=
  ∑ L : Fin 8192, ((∑ k : Fin 2048, X (ix2 R k) * Wq (ix2 L k)) * (∑ k : Fin 2048, X (ix2 R k) * Wv (ix2 L k))) * Wo (ix2 e L)

theorem term_eq (R : Fin 4096) (e : Fin 2048) (L : Fin 8192) :
    term X Wq Wv Wo R.val e.val L.val
      = ((∑ k : Fin 2048, X (ix2 R k) * Wq (ix2 L k)) * (∑ k : Fin 2048, X (ix2 R k) * Wv (ix2 L k))) * Wo (ix2 e L) :=
  dif_pos ⟨R.isLt, e.isLt, L.isLt⟩

/-- The sum over the first `n` tiles of 256 lattice positions. -/
def upTo (R e n : ℕ) : EReal := ∑ s ∈ range n, ∑ q : Fin 256, term X Wq Wv Wo R e (256 * s + q.val)

theorem upTo_zero (R e : ℕ) : upTo X Wq Wv Wo R e 0 = 0 := by
  unfold upTo; rw [range_zero, sum_empty]

theorem upTo_succ (R e n : ℕ) :
    upTo X Wq Wv Wo R e (n + 1) = upTo X Wq Wv Wo R e n + ∑ q : Fin 256, term X Wq Wv Wo R e (256 * n + q.val) := by
  unfold upTo; rw [sum_range_succ]

/-- All 32 tiles together are the whole lattice axis. -/
theorem upTo_all (R : Fin 4096) (e : Fin 2048) : upTo X Wq Wv Wo R.val e.val 32 = whole X Wq Wv Wo R e := by
  unfold upTo whole
  rw [Cert.Algebra.sum_fin_stretches (term X Wq Wv Wo R.val e.val) 32 256]
  show ∑ L : Fin 8192, term X Wq Wv Wo R.val e.val L.val = _
  exact sum_congr rfl fun L _ => term_eq X Wq Wv Wo R e L

/-! ## One tile from blocks

A grid point sees a 512-row block of X (row tile `i`), 256-row blocks of Wq and Wv and a 256-column block of Wo
(lattice tile `j`). The tile's sum formed from the blocks is the sum of the tile's summands. -/

abbrev SXb : Shape := ⟨2, ![512, 2048]⟩
abbrev SWb : Shape := ⟨2, ![256, 2048]⟩
abbrev SOb : Shape := ⟨2, ![2048, 256]⟩

/-- One tile's sum at entry `(r, e)`, from blocks. -/
def tileSum (x0 : SXb.Idx → EReal) (x1 x2 : SWb.Idx → EReal) (x3 : SOb.Idx → EReal) (r : Fin 512) (e : Fin 2048) : EReal :=
  ∑ l : Fin 256, ((∑ k : Fin 2048, x0 (ix2 r k) * x1 (ix2 l k)) * (∑ k : Fin 2048, x0 (ix2 r k) * x2 (ix2 l k))) * x3 (ix2 e l)

theorem tileSum_eq (x0 : SXb.Idx → EReal) (x1 x2 : SWb.Idx → EReal) (x3 : SOb.Idx → EReal) (i j : ℕ) (hi : i < 8) (hj : j < 32)
    (h0 : ∀ (r : Fin 512) (k : Fin 2048) (R : Fin 4096), R.val = 512 * i + r.val → x0 (ix2 r k) = X (ix2 R k))
    (h1 : ∀ (l : Fin 256) (k : Fin 2048) (L : Fin 8192), L.val = 256 * j + l.val → x1 (ix2 l k) = Wq (ix2 L k))
    (h2 : ∀ (l : Fin 256) (k : Fin 2048) (L : Fin 8192), L.val = 256 * j + l.val → x2 (ix2 l k) = Wv (ix2 L k))
    (h3 : ∀ (e : Fin 2048) (l : Fin 256) (L : Fin 8192), L.val = 256 * j + l.val → x3 (ix2 e l) = Wo (ix2 e L))
    (r : Fin 512) (e : Fin 2048) :
    tileSum x0 x1 x2 x3 r e = ∑ q : Fin 256, term X Wq Wv Wo (512 * i + r.val) e.val (256 * j + q.val) := by
  unfold tileSum
  refine sum_congr rfl fun l _ => ?_
  have hR : 512 * i + r.val < 4096 := by have := r.isLt; omega
  have hL : 256 * j + l.val < 8192 := by have := l.isLt; omega
  unfold term
  rw [dif_pos ⟨hR, e.isLt, hL⟩, h3 e l ⟨_, hL⟩ rfl]
  congr 2
  · exact sum_congr rfl fun k _ => by rw [h0 r k ⟨_, hR⟩ rfl, h1 l k ⟨_, hL⟩ rfl]
  · exact sum_congr rfl fun k _ => by rw [h0 r k ⟨_, hR⟩ rfl, h2 l k ⟨_, hL⟩ rfl]

/-! ## The result over the unflattened activations

Row `R = 2048·b + s` of X is position `(b, s)` of the activations H : 2 × 2048 × 2048. -/

abbrev SH : Shape := ⟨3, ![2, 2048, 2048]⟩

/-- The result at `(b, s, e)` from the activations. -/
def result (H : SH.Idx → EReal) : SH.Idx → EReal := fun I =>
  ∑ L : Fin 8192, ((∑ k : Fin 2048, H (ix3 (I 0) (I 1) k) * Wq (ix2 L k))
    * (∑ k : Fin 2048, H (ix3 (I 0) (I 1) k) * Wv (ix2 L k))) * Wo (ix2 (I 2) L)

/-- When X is H with its two leading axes flattened, the whole result at row `R` is the result at `(b, s)`. -/
theorem whole_eq_result (H : SH.Idx → EReal) (R : Fin 4096) (b : Fin 2) (s e : Fin 2048)
    (hX : ∀ k, X (ix2 R k) = H (ix3 b s k)) :
    whole X Wq Wv Wo R e = result Wq Wv Wo H (ix3 b s e) := by
  unfold whole result
  refine sum_congr rfl fun L _ => ?_
  simp only [hX]

end Cert.Spec

end
-- ==== Proof.Running.lean ====
/-
  The running block is the running sum.

  After point t = 32·i + j the scratch holds, at entry (r, e), the sum over the lattice tiles 0 … j of the summands
  of row 512·i + r and column e: the first point of a row tile adds its tile to the zero block, every later point
  adds its tile to what the point before left, and a tile's sum read from the point's blocks is that tile's
  summands read from the arrays. At the row tile's last point the output block is a copy of the scratch.
-/
import proofs.«139317_j46780783788220_1_alg».proof.Proof.Held
import proofs.«139317_j46780783788220_1_alg».proof.Proof.Update
import proofs.«139317_j46780783788220_1_alg».proof.Proof.Blocks
import proofs.«139317_j46780783788220_1_alg».proof.Proof.Spec

set_option maxRecDepth 16384

noncomputable section

open Idealize.ShloMosaic Idealize.ShloMosaic.TcCoe Idealize.SL.Sem Idealize.ShloMosaic.ValueIdx

namespace Cert.KernelIdeal.Held

open Cert.KernelIdeal Cert.KernelIdeal.Gen Finset

variable (m : (ℓ : Loc nD τ sig) → Buf (Elt Ideal) ℓ)

/-- The update adds the tile's sum formed from the point's blocks. -/
theorem update_tile (x0 : Vec Ideal S512x2048 .f32) (x1 x2 : Vec Ideal S256x2048 .f32) (x3 : Vec Ideal S2048x256 .f32)
    (xs : Vec Ideal S512x2048 .f32) (r : Fin 512) (e : Fin 2048) :
    k0_pay2 (F := Ideal) x0 x1 x2 x3 xs (ix2 r e) = xs (ix2 r e) + Cert.Spec.tileSum x0 x1 x2 x3 r e :=
  update_apply x0 x1 x2 x3 xs r e

/-- The tile's sum from the blocks of point `t` is the sum of the tile's summands from the arrays. -/
theorem tile_eq (c : Dev nD) (t : Fin cfg0.N) (r : Fin 512) (e : Fin 2048) :
    Cert.Spec.tileSum (xblk m c t) (ablk m c t) (bblk m c t) (wblk m c t) r e
      = ∑ q : Fin 256, Cert.Spec.term (Xarr m c) (Aarr m c) (Barr m c) (Warr m c)
          (512 * (t.val / 32) + r.val) e.val (256 * (t.val % 32) + q.val) := by
  have hN : t.val < 256 := lt_of_lt_of_eq t.isLt (show cfg0.N = 256 from N_0)
  exact Cert.Spec.tileSum_eq (Xarr m c) (Aarr m c) (Barr m c) (Warr m c) (xblk m c t) (ablk m c t) (bblk m c t) (wblk m c t)
    (t.val / 32) (t.val % 32) (by omega) (by omega)
    (fun r k R hR => xblk_apply m c t r k R hR) (fun l k L hL => ablk_apply m c t l k L hL)
    (fun l k L hL => bblk_apply m c t l k L hL) (fun e l L hL => wblk_apply m c t e l L hL) r e

/-- First point of a row tile: the scratch holds the tile's sum added to zero. -/
theorem held_first (c : Dev nD) (t : Fin cfg0.N) (h0 : t.val % 32 = 0) (h1 : ¬t.val % 32 = 31) (r : Fin 512) (e : Fin 2048) :
    (outsAt0 m c t.val t.isLt).2 (ix2 r e)
      = 0 + Cert.Spec.tileSum (xblk m c t) (ablk m c t) (bblk m c t) (wblk m c t) r e := by
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 r e)).trans ?_
  refine (update_tile (xblk m c t) (ablk m c t) (bblk m c t) (wblk m c t) (k0_pay1 (F := Ideal)) r e).trans ?_
  exact congrArg (· + Cert.Spec.tileSum (xblk m c t) (ablk m c t) (bblk m c t) (wblk m c t) r e) (reset_apply (ix2 r e))

/-- A later point: the scratch holds the tile's sum added to what the point before left. -/
theorem held_next (c : Dev nD) (t : Fin cfg0.N) (h0 : ¬t.val % 32 = 0) (r : Fin 512) (e : Fin 2048) :
    (outsAt0 m c t.val t.isLt).2 (ix2 r e)
      = (outsAt0 m c (t.val - 1) (Nat.lt_of_le_of_lt (Nat.sub_le _ _) t.isLt)).2 (ix2 r e)
        + Cert.Spec.tileSum (xblk m c t) (ablk m c t) (bblk m c t) (wblk m c t) r e := by
  by_cases h1 : t.val % 32 = 31
  · rw [outsAt0_C m c t h0 h1]
    dsimp only
    refine (congrFun (scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 r e)).trans ?_
    exact update_tile (xblk m c t) (ablk m c t) (bblk m c t) (wblk m c t) (outsAt0 m c (t.val - 1) (Nat.lt_of_le_of_lt (Nat.sub_le _ _) t.isLt)).2 r e
  · rw [outsAt0_B m c t h0 h1]
    dsimp only
    refine (congrFun (scratch_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) (ix2 r e)).trans ?_
    exact update_tile (xblk m c t) (ablk m c t) (bblk m c t) (wblk m c t) (outsAt0 m c (t.val - 1) (Nat.lt_of_le_of_lt (Nat.sub_le _ _) t.isLt)).2 r e

/-- Last point of a row tile: the output block is the scratch. -/
theorem out_eq_scratch (c : Dev nD) (t : Fin cfg0.N) (h0 : ¬t.val % 32 = 0) (h1 : t.val % 32 = 31) :
    (outsAt0 m c t.val t.isLt).1 = (outsAt0 m c t.val t.isLt).2 := by
  rw [outsAt0_C m c t h0 h1]
  dsimp only
  exact (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

/-- THE RUNNING SUM: after point `n` the scratch holds the sum over the lattice tiles `0 … n % 32`. -/
theorem running (c : Dev nD) : ∀ (n : ℕ) (h : n < cfg0.N) (r : Fin 512) (e : Fin 2048),
    (outsAt0 m c n h).2 (ix2 r e)
      = Cert.Spec.upTo (Xarr m c) (Aarr m c) (Barr m c) (Warr m c) (512 * (n / 32) + r.val) e.val (n % 32 + 1) := by
  intro n
  induction n with
  | zero =>
    intro h r e
    rw [held_first m c ⟨0, h⟩ rfl (by dsimp only; omega) r e, tile_eq, Cert.Spec.upTo_succ, Cert.Spec.upTo_zero]
  | succ n ih =>
    intro h r e
    by_cases h0 : (n + 1) % 32 = 0
    · rw [held_first m c ⟨n + 1, h⟩ h0 (by dsimp only; omega) r e, tile_eq]
      dsimp only
      rw [h0, Cert.Spec.upTo_succ, Cert.Spec.upTo_zero]
    · have hd : (n + 1) / 32 = n / 32 := by omega
      have hm : (n + 1) % 32 = n % 32 + 1 := by omega
      rw [held_next m c ⟨n + 1, h⟩ h0 r e, tile_eq]
      show (outsAt0 m c n (Nat.lt_of_succ_lt h)).2 (ix2 r e) + _ = _
      rw [ih (Nat.lt_of_succ_lt h) r e]
      dsimp only
      rw [hd, hm]
      exact (Cert.Spec.upTo_succ _ _ _ _ _ _ _).symm

end Cert.KernelIdeal.Held

end
-- ==== Proof.Final.lean ====
/-
  The kernel's result.

  Row tile i's output block is written back once, after its last lattice tile, holding the sum over all 32 tiles:
  the whole sum over the lattice axis. The eight blocks tile the 4096 × 2048 result of the region, so that array
  ends at the whole sum at every entry. The program flattens the activations' two leading axes before the region and
  splits the result's rows back afterwards; row 2048·b + s is position (b, s).
-/
import proofs.«139317_j46780783788220_1_alg».proof.Proof.Running
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.Held

open Cert.KernelIdeal Cert.KernelIdeal.Gen Finset

variable (m : (ℓ : Loc nD τ sig) → Buf (Elt Ideal) ℓ) (ρ : Dev nD → PrngReg)

/-- The region's result array: the whole sum at every entry. -/
def wholeArr (c : Dev nD) : Vec Ideal S4096x2048 .f32 := fun I =>
  Cert.Spec.whole (Xarr m c) (Aarr m c) (Barr m c) (Warr m c) ⟨(I 0).val, idx2_lt0 I⟩ ⟨(I 1).val, idx2_lt1 I⟩

/-- After a row tile's last point the scratch holds the whole sum, at the entry of the result the block's entry is. -/
theorem last_entry (c : Dev nD) (t : Fin cfg0.N) (h31 : t.val % 32 = 31) (r : Fin 512) (e : Fin 2048) (I : S4096x2048.Idx)
    (h0 : (I 0).val = 512 * (t.val / 32) + r.val) (h1 : (I 1).val = e.val) :
    (outsAt0 m c t.val t.isLt).2 (ix2 r e) = wholeArr m c I := by
  rw [running m c t.val t.isLt r e, h31, ← h0, ← h1]
  exact Cert.Spec.upTo_all (Xarr m c) (Aarr m c) (Barr m c) (Warr m c) ⟨(I 0).val, idx2_lt0 I⟩ ⟨(I 1).val, idx2_lt1 I⟩

/-- What a row tile's last point writes back is its block of the whole sum. -/
theorem flushed_eq (c : Dev nD) (t : Fin cfg0.N) (hf : (cfg0.win 4).flush t = true) :
    (dats m 0 c).flushed 4 t = ((cfg0.win 4).blk t).view.read (Elt Ideal) (wholeArr m c) := by
  have h31 : t.val % 32 = 31 := (flush0_4 t).mp hf
  obtain ⟨-, -, -, -, -, -, -, -, i0, i1⟩ := idx_facts t
  show (cfg0.win 4).cut (grid0.coords t) ((dats m 0 c).after 4 t) = _
  rw [after0_4, out_eq_scratch m c t (by omega) h31]
  funext j
  rw [View.read_apply]
  refine (congrArg (outsAt0 m c t.val t.isLt).2 (eq_ix2 j)).trans ?_
  refine last_entry m c t h31 (j 0) (j 1) (((cfg0.win 4).blk t).view.emb j) ?_ ?_
  · show win0_4.index t 0 * 512 + 1 * (j 0).val = _
    rw [i0]; omega
  · show win0_4.index t 1 * 2048 + 1 * (j 1).val = _
    rw [i1]; omega

/-- An entry of the result is in point `t`'s block iff each coordinate is in the block's range. -/
theorem mem_blk (t : Fin cfg0.N) (I : S4096x2048.Idx) :
    I ∈ ((cfg0.win 4).blk t).view.set ↔ ∀ a : Fin 2, win0_4.index t a * S512x2048.size a ≤ (I a).val
      ∧ (I a).val < win0_4.index t a * S512x2048.size a + S512x2048.size a := by
  show I ∈ ((View.whole main_v1).slice (win0_4.rect t)).set ↔ _
  rw [View.set_slice_whole, Rect.mem_set_unit]
  exact Iff.rfl

/-- So the region's result array ends at the whole sum: row `R` is written back by the last point of row tile `R / 512`. -/
theorem final (c : Dev nD) : (dats m 0 c).arrAt 4 cfg0.N = wholeArr m c :=
  (dats m 0 c).arrAt_eq_of_cover 4 (wholeArr m c) (flushed_eq m c) fun I => by
    have hI0 : (I 0).val < 4096 := idx2_lt0 I
    have hI1 : (I 1).val < 2048 := idx2_lt1 I
    have hN : cfg0.N = 256 := N_0
    have ht : 32 * ((I 0).val / 512) + 31 < cfg0.N := by rw [hN]; omega
    refine ⟨⟨32 * ((I 0).val / 512) + 31, ht⟩, (flush0_4 _).mpr (by dsimp only; omega), ?_⟩
    obtain ⟨-, -, -, -, -, -, -, -, i0, i1⟩ := idx_facts ⟨32 * ((I 0).val / 512) + 31, ht⟩
    rw [mem_blk]
    intro a
    match a with
    | ⟨0, _⟩ =>
      show win0_4.index ⟨32 * ((I 0).val / 512) + 31, ht⟩ (0 : Fin 2) * 512 ≤ (I 0).val
        ∧ (I 0).val < win0_4.index ⟨32 * ((I 0).val / 512) + 31, ht⟩ (0 : Fin 2) * 512 + 512
      rw [i0]; dsimp only; omega
    | ⟨1, _⟩ =>
      show win0_4.index ⟨32 * ((I 0).val / 512) + 31, ht⟩ (1 : Fin 2) * 2048 ≤ (I 1).val
        ∧ (I 1).val < win0_4.index ⟨32 * ((I 0).val / 512) + 31, ht⟩ (1 : Fin 2) * 2048 + 2048
      rw [i1]; omega

/-! ## The host operations around the region -/

/-- The region finds X as the activations with their two leading axes flattened. -/
theorem Xarr_eq (c : Dev nD) : Xarr m c
    = shapeCast S4096x2048 (m ((c : Thread nD τ).loc main_arg0)) shapeCasts_S2x2048x2048_S4096x2048 := by
  show StableHlo.after hostOps0 (fun b => m (c, b)) (Proc.devRef .tc main_v0) = _
  after_results
  rfl

/-- Row `2048·b + s` of X is position `(b, s)` of the activations. -/
theorem Xarr_apply (c : Dev nD) (R : Fin 4096) (b : Fin 2) (s k : Fin 2048) (hR : R.val = 2048 * b.val + s.val) :
    Xarr m c (ix2 R k) = m ((c : Thread nD τ).loc main_arg0) (ix3 b s k) := by
  rw [Xarr_eq]
  refine shapeCast_apply _ _ _ _ ?_
  show (S2x2048x2048.rowMajor (ix3 b s k)).val = (S4096x2048.rowMajor (ix2 R k)).val
  rw [Shape.rowMajor_val_two, Shape.rowMajor_val_three]
  show (b.val * 2048 + s.val) * 2048 + k.val = R.val * 2048 + k.val
  rw [hR]; ring

/-- The program's result is the region's result with its rows split back into `(b, s)`. -/
theorem tail_eq (c : Dev nD) :
    Pipeline.afterTail₀ cfgs (dats m) 0 (V0 m) [hostOps1] c main_v2
      = shapeCast S2x2048x2048 (wholeArr m c) shapeCasts_S4096x2048_S2x2048x2048 := by
  have hw : Pipeline.withArrays (cfgs 0).spec c (V0 m c) (fun w => (dats m 0 c).arrAt w (cfgs 0).N) (Proc.devRef .tc main_v1)
      = wholeArr m c := (Pipeline.withArrays_arr spec0 launch0.win.arr_inj c _ _ 4).trans (final m c)
  unfold Pipeline.afterTail₀
  show StableHlo.after hostOps1 _ (Proc.devRef .tc main_v2) = _
  after_results
  rw [hw]
  rfl

/-- THE RESULT at `(b, s, e)`: the sum over the lattice axis of the product of the two projections of the activations
    at `(b, s)`, weighted by column `e` of the output weights. -/
theorem result_eq (c : Dev nD) :
    Pipeline.afterTail₀ cfgs (dats m) 0 (V0 m) [hostOps1] c main_v2
      = Cert.Spec.result (m ((c : Thread nD τ).loc main_arg1)) (m ((c : Thread nD τ).loc main_arg3))
          (m ((c : Thread nD τ).loc main_arg4)) (m ((c : Thread nD τ).loc main_arg0)) := by
  rw [tail_eq]
  funext I
  obtain ⟨b, s, e, rfl⟩ : ∃ (b : Fin 2) (s e : Fin 2048), I = ix3 b s e := ⟨I 0, I 1, I 2, eq_ix3 I⟩
  have hR : 2048 * b.val + s.val < 4096 := by have := b.isLt; have := s.isLt; omega
  rw [shapeCast_apply (wholeArr m c) shapeCasts_S4096x2048_S2x2048x2048 (ix3 b s e) (ix2 ⟨2048 * b.val + s.val, hR⟩ e) (by
    show (S4096x2048.rowMajor (ix2 ⟨2048 * b.val + s.val, hR⟩ e)).val = (S2x2048x2048.rowMajor (ix3 b s e)).val
    rw [Shape.rowMajor_val_two, Shape.rowMajor_val_three]
    show (2048 * b.val + s.val) * 2048 + e.val = (b.val * 2048 + s.val) * 2048 + e.val
    ring)]
  unfold wholeArr
  rw [show Aarr m c = m ((c : Thread nD τ).loc main_arg1) from V_main_arg1 m c,
    show Barr m c = m ((c : Thread nD τ).loc main_arg3) from V_main_arg3 m c,
    show Warr m c = m ((c : Thread nD τ).loc main_arg4) from V_main_arg4 m c]
  exact Cert.Spec.whole_eq_result (Xarr m c) _ _ _ (m ((c : Thread nD τ).loc main_arg0)) ⟨2048 * b.val + s.val, hR⟩ b s e
    (fun k => Xarr_apply m c ⟨2048 * b.val + s.val, hR⟩ b s k rfl)

/-- THE RUN, READ: every weakly fair execution terminates with the program's result at that function of the
    arguments and the arguments unchanged. -/
theorem run : θ_run defs (onTc (τ := τ) (main (F := Ideal))) ⟨m, fun _ => 0, ρ⟩ fun r => ∀ c : Dev nD,
      r.2.mem ((c.tc : Thread nD τ).loc main_v2)
        = Cert.Spec.result (m ((c : Thread nD τ).loc main_arg1)) (m ((c : Thread nD τ).loc main_arg3))
            (m ((c : Thread nD τ).loc main_arg4)) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.Held

end
-- ==== Proof.RefValue.lean ====
/-
  The reference's result, entry by entry.

  The reference projects the activations H on Wq and on Wv (contracting the embedding axis), multiplies the two
  projections entry by entry and projects the product on Wo (contracting the lattice axis): at (b, s, e) that is

      ∑ L, ((∑ k, H[b,s,k]·Wq[L,k]) · (∑ k, H[b,s,k]·Wv[L,k])) · Wo[e,L].
-/
import proofs.«139317_j46780783788220_1_alg».proof.Proof.Gen.ReferenceIdeal.Read
import proofs.«139317_j46780783788220_1_alg».proof.Proof.Spec

noncomputable section

open Idealize.ShloMosaic Idealize.ShloMosaic.ValueIdx

namespace Cert.ReferenceIdeal.RefValue

open Cert.ReferenceIdeal Cert.ReferenceIdeal.Read

theorem result_eq (x0 : (⟨S2x2048x2048, .f32⟩ : BufTy).Contents (Elt Ideal)) (x1 x3 : (⟨S8192x2048, .f32⟩ : BufTy).Contents (Elt Ideal))
    (x4 : (⟨S2048x8192, .f32⟩ : BufTy).Contents (Elt Ideal)) :
    val_main_v4 (F := Ideal) x0 x1 x3 x4 = Cert.Spec.result x1 x3 x4 x0 := by
  funext i
  have e0 : ∀ (L : Fin 8192) (k : Fin 2048), lidx_main_v0 (lidx_main_v4 i L) k = ix3 (i 0) (i 1) k := fun L k =>
    funext fun a => Fin.ext (by match a with | ⟨0, _⟩ => rfl | ⟨1, _⟩ => rfl | ⟨2, _⟩ => rfl)
  have e1 : ∀ (L : Fin 8192) (k : Fin 2048), ridx_main_v0 (lidx_main_v4 i L) k = ix2 L k := fun L k =>
    funext fun a => Fin.ext (by match a with | ⟨0, _⟩ => rfl | ⟨1, _⟩ => rfl)
  have e2 : ∀ (L : Fin 8192) (k : Fin 2048), lidx_main_v2 (lidx_main_v4 i L) k = ix3 (i 0) (i 1) k := fun L k =>
    funext fun a => Fin.ext (by match a with | ⟨0, _⟩ => rfl | ⟨1, _⟩ => rfl | ⟨2, _⟩ => rfl)
  have e3 : ∀ (L : Fin 8192) (k : Fin 2048), ridx_main_v2 (lidx_main_v4 i L) k = ix2 L k := fun L k =>
    funext fun a => Fin.ext (by match a with | ⟨0, _⟩ => rfl | ⟨1, _⟩ => rfl)
  have e4 : ∀ L : Fin 8192, ridx_main_v4 i L = ix2 (i 2) L := fun L =>
    funext fun a => Fin.ext (by match a with | ⟨0, _⟩ => rfl | ⟨1, _⟩ => rfl)
  rw [val_main_v4_apply]
  unfold Cert.Spec.result
  refine Finset.sum_congr rfl fun L _ => ?_
  rw [val_main_v3_apply, val_main_v0_apply, val_main_v2_apply]
  simp only [e0, e1, e2, e3, e4, Ideal.mulf_def]
  rfl

end Cert.ReferenceIdeal.RefValue

end
-- ==== Proof.lean ====
/-
  The fused kernel computes, for activations H : 2 × 2048 × 2048 and weights Wq, Wv : 8192 × 2048, Wo : 2048 × 8192,

      out[b,s,e] = ∑ L, ((∑ k, H[b,s,k]·Wq[L,k]) · (∑ k, H[b,s,k]·Wv[L,k])) · Wo[e,L],

  accumulating the lattice axis L in 32 tiles of 256 positions per row tile; the reference computes the two
  projections whole, multiplies them and projects on Wo with one contraction over all 8192 positions. Over the
  extended reals the changes of float format are the identity, so the two results differ only in how the sum over
  L is grouped, and a sum over the first 32·256 positions is the sum of its 32 stretches in every additive
  commutative monoid: no finiteness of the inputs is used. The third weight matrix Wk is read by neither result.

  The three programs run and leave their arguments unchanged (the kernels' frames; the reference's run), and the
  idealization rewrote nothing.
-/
import proofs.«139317_j46780783788220_1_alg».proof.Defs
import proofs.«139317_j46780783788220_1_alg».proof.Proof.Gen.Kernel
import proofs.«139317_j46780783788220_1_alg».proof.Proof.Gen.Kernel.Frame
import proofs.«139317_j46780783788220_1_alg».proof.Proof.Gen.KernelIdeal
import proofs.«139317_j46780783788220_1_alg».proof.Proof.Gen.KernelIdeal.Frame
import proofs.«139317_j46780783788220_1_alg».proof.Proof.Gen.ReferenceIdeal
import proofs.«139317_j46780783788220_1_alg».proof.Proof.Gen.ReferenceIdeal.Run
import proofs.«139317_j46780783788220_1_alg».proof.Proof.Gen.ReferenceIdeal.Read
import proofs.«139317_j46780783788220_1_alg».proof.Proof.Gen.Pre_finite_inputs
import proofs.«139317_j46780783788220_1_alg».proof.Proof.Final
import proofs.«139317_j46780783788220_1_alg».proof.Proof.RefValue
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2)
    (Cert.ReferenceIdeal.Value.run (F := Ideal) m ρ)

/-- Both runs end at the same function of arguments that agree. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg0)),
    Cert.KernelIdeal.Held.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.result_eq,
    (hagree c).1, (hagree c).2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
